-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x46 : Shape := ⟨2, ![2000000, 46]⟩
abbrev S2000000 : Shape := ⟨1, ![2000000]⟩
abbrev S_ : Shape := ⟨0, ![]⟩

class Facts : Prop where
  bcast_S_S2000000x46 : S_.BroadcastsInDim S2000000x46 (![] : Fin 0 → Fin S2000000x46.rank)
  reducesTo_S2000000x46_S_d0_1 : S2000000x46.ReducesTo [0, 1] S_
  h_S_ : 0 < S_.numel

variable [Facts]

def fn {F : FTy → Type} [FloatOps F] (main_arg0 : FVec F S2000000x46 .f32) (main_arg1 : IVec S2000000 32) : IVec S_ 1 :=
  let main_v0 : FVec F S2000000x46 .f32 := Host.absf main_arg0
  let main_cst : FVec F S_ .f32 := constant S_ .f32 0x7F800000#32
  let main_v1 : FVec F S2000000x46 .f32 := broadcastInDim S2000000x46 ![] bcast_S_S2000000x46 main_cst
  let main_v2 : IVec S2000000x46 1 := cmpf .olt main_v0 main_v1
  let main_c : IVec S_ 1 := constantI S_ 1 1#1
  let main_v3 : IVec S_ 1 := (fun x v => Host.reduce IntOp.andi x v reducesTo_S2000000x46_S_d0_1 h_S_) main_v2 main_c
  main_v3
-- ==== Kernel.lean ====
abbrev S2000000x46 : Shape := ⟨2, ![2000000, 46]⟩
abbrev S2000000 : Shape := ⟨1, ![2000000]⟩
abbrev S2000000x1 : Shape := ⟨2, ![2000000, 1]⟩
abbrev S46 : Shape := ⟨1, ![46]⟩
abbrev S20000x46 : Shape := ⟨2, ![20000, 46]⟩
abbrev S20000x1 : Shape := ⟨2, ![20000, 1]⟩
abbrev S_ : Shape := ⟨0, ![]⟩

abbrev nBuf : Space → Nat
  | .hbm => 41
  | .vmem => 7
  | .smem => 0
  | _ => 0

abbrev bufTy : (tb : Table) → Fin (tcTables nBuf tb) → BufTy
  | .hbm, ⟨0, _⟩ => ⟨S2000000x46, .f32⟩
  | .hbm, ⟨1, _⟩ => ⟨S2000000, .i32⟩
  | .hbm, ⟨2, _⟩ => ⟨S2000000x1, .i32⟩
  | .hbm, ⟨3, _⟩ => ⟨S46, .f32⟩
  | .hbm, ⟨4, _⟩ => ⟨S46, .f32⟩
  | .hbm, ⟨5, _⟩ => ⟨S46, .f32⟩
  | .hbm, ⟨6, _⟩ => ⟨S46, .f32⟩
  | .hbm, ⟨7, _⟩ => ⟨S46, .f32⟩
  | .hbm, ⟨8, _⟩ => ⟨S46, .f32⟩
  | .hbm, ⟨9, _⟩ => ⟨S_, .f32⟩
  | .hbm, ⟨10, _⟩ => ⟨S46, .f32⟩
  | .hbm, ⟨11, _⟩ => ⟨S46, .f32⟩
  | .hbm, ⟨12, _⟩ => ⟨S46, .f32⟩
  | .hbm, ⟨13, _⟩ => ⟨S46, .f32⟩
  | .hbm, ⟨14, _⟩ => ⟨S_, .f32⟩
  | .hbm, ⟨15, _⟩ => ⟨S46, .f32⟩
  | .hbm, ⟨16, _⟩ => ⟨S46, .f32⟩
  | .hbm, ⟨17, _⟩ => ⟨S46, .f32⟩
  | .hbm, ⟨18, _⟩ => ⟨S_, .f32⟩
  | .hbm, ⟨19, _⟩ => ⟨S46, .f32⟩
  | .hbm, ⟨20, _⟩ => ⟨S46, .f32⟩
  | .hbm, ⟨21, _⟩ => ⟨S46, .f32⟩
  | .hbm, ⟨22, _⟩ => ⟨S46, .f32⟩
  | .hbm, ⟨23, _⟩ => ⟨S_, .f32⟩
  | .hbm, ⟨24, _⟩ => ⟨S46, .f32⟩
  | .hbm, ⟨25, _⟩ => ⟨S46, .f32⟩
  | .hbm, ⟨26, _⟩ => ⟨S46, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S46, .f32⟩
  | .hbm, ⟨31, _⟩ => ⟨S46, .f32⟩
  | .hbm, ⟨32, _⟩ => ⟨S_, .f32⟩
  | .hbm, ⟨33, _⟩ => ⟨S46, .f32⟩
  | .hbm, ⟨34, _⟩ => ⟨S46, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S20000x46, .f32⟩
  | .local _ .vmem, ⟨1, _⟩ => ⟨S20000x46, .f32⟩
  | .local _ .vmem, ⟨2, _⟩ => ⟨S20000x1, .i32⟩
  | .local _ .vmem, ⟨3, _⟩ => ⟨S20000x1, .i32⟩
  | .local _ .vmem, ⟨4, _⟩ => ⟨S46, .f32⟩
  | .local _ .vmem, ⟨5, _⟩ => ⟨S46, .f32⟩
  | .local _ .vmem, ⟨6, _⟩ => ⟨S46, .f32⟩
  | _, _ => ⟨S2000000x46, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_cst_7 : Ref sig .tc := ⟨.hbm, 39, rfl⟩
abbrev main_v22 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S20000x46 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S46 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S46 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S46 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S2000000_S2000000x1 : S2000000.ShapeCasts S2000000x1
  inb_S46_S46_0 : ∀ a, (![0] : Fin 1 → Nat) a + S46.size a ≤ S46.size a
  h_S46 : 0 < S46.numel
  inb_S20000x46_S20000x46_0_0 : ∀ a, (![0, 0] : Fin 2 → Nat) a + S20000x46.size a ≤ S20000x46.size a
  h_S20000x46 : 0 < S20000x46.numel
  inb_S20000x1_S20000x1_0_0 : ∀ a, (![0, 0] : Fin 2 → Nat) a + S20000x1.size a ≤ S20000x1.size a
  h_S20000x1 : 0 < S20000x1.numel
  shapeCasts_S20000x1_S20000x1 : S20000x1.ShapeCasts S20000x1
  iota_S20000x46_d1_w32 : S20000x46.Iotas .tc 32 [1]
  broadcasts_S20000x1_S20000x46 : S20000x1.Broadcasts S20000x46
  natLt_1_32 : 1 < 32
  shapeCasts_S46_S46 : S46.ShapeCasts S46
  reduces_S20000x46_S46 : S20000x46.Reduces [0] S46
  bcast_S_S46 : S_.BroadcastsInDim S46 (![] : Fin 0 → Fin S46.rank)
  reducesTo_S46_S_d0 : S46.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x46.size a ≤ S2000000x46.size a
  hwx0_0 : ∀ i : grid0.Coords, EltTy.bits .f32 = 32 ∨ (Rect.block (s := S2000000x46) S20000x46.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20000x1.size a ≤ S2000000x1.size a
  hwx0_1 : ∀ i : grid0.Coords, EltTy.bits .i32 = 32 ∨ (Rect.block (s := S2000000x1) S20000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S46.size a ≤ S46.size a
  hwx0_2 : ∀ i : grid0.Coords, EltTy.bits .f32 = 32 ∨ (Rect.block (s := S46) S46.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S46.size a ≤ S46.size a
  hwx0_3 : ∀ i : grid0.Coords, EltTy.bits .f32 = 32 ∨ (Rect.block (s := S46) S46.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S46.size a ≤ S46.size a
  hwx0_4 : ∀ i : grid0.Coords, EltTy.bits .f32 = 32 ∨ (Rect.block (s := S46) S46.size (cc0_transform_4 i) (hinb0_4 i)).WholeWords (EltTy.packing .f32)

variable [Facts₀]

abbrev win0_0 : Pipeline.Window sig grid0 :=
  Pipeline.Window.ofSpec (Memref.whole main_arg0) S20000x46.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S20000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S46.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S46.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S46.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2000000x46 : Shape := ⟨2, ![2000000, 46]⟩
abbrev S2000000 : Shape := ⟨1, ![2000000]⟩
abbrev S46 : Shape := ⟨1, ![46]⟩
abbrev S2000000x1 : Shape := ⟨2, ![2000000, 1]⟩
abbrev S1x46 : Shape := ⟨2, ![1, 46]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S2000000x46, .f32⟩
  | .hbm, ⟨1, _⟩ => ⟨S2000000, .i32⟩
  | .hbm, ⟨2, _⟩ => ⟨S46, .i32⟩
  | .hbm, ⟨3, _⟩ => ⟨S2000000x1, .i32⟩
  | .hbm, ⟨4, _⟩ => ⟨S1x46, .i32⟩
  | .hbm, ⟨5, _⟩ => ⟨S2000000x46, .i32⟩
  | .hbm, ⟨6, _⟩ => ⟨S2000000x46, .i32⟩
  | .hbm, ⟨7, _⟩ => ⟨S2000000x46, .i1⟩
  | .hbm, ⟨8, _⟩ => ⟨S2000000x46, .f32⟩
  | .hbm, ⟨9, _⟩ => ⟨S_, .f32⟩
  | .hbm, ⟨10, _⟩ => ⟨S46, .f32⟩
  | .hbm, ⟨11, _⟩ => ⟨S2000000x46, .f32⟩
  | .hbm, ⟨12, _⟩ => ⟨S_, .f32⟩
  | .hbm, ⟨13, _⟩ => ⟨S46, .f32⟩
  | .hbm, ⟨14, _⟩ => ⟨S_, .f32⟩
  | .hbm, ⟨15, _⟩ => ⟨S46, .f32⟩
  | .hbm, ⟨16, _⟩ => ⟨S46, .f32⟩
  | .hbm, ⟨17, _⟩ => ⟨S46, .f32⟩
  | .hbm, ⟨18, _⟩ => ⟨S46, .f32⟩
  | .hbm, ⟨19, _⟩ => ⟨S_, .f32⟩
  | .hbm, ⟨20, _⟩ => ⟨S46, .f32⟩
  | .hbm, ⟨21, _⟩ => ⟨S46, .f32⟩
  | .hbm, ⟨22, _⟩ => ⟨S46, .f32⟩
  | .hbm, ⟨23, _⟩ => ⟨S46, .f32⟩
  | .hbm, ⟨24, _⟩ => ⟨S_, .f32⟩
  | .hbm, ⟨25, _⟩ => ⟨S46, .f32⟩
  | .hbm, ⟨26, _⟩ => ⟨S46, .f32⟩
  | .hbm, ⟨27, _⟩ => ⟨S46, .f32⟩
  | .hbm, ⟨28, _⟩ => ⟨S_, .f32⟩
  | .hbm, ⟨29, _⟩ => ⟨S46, .f32⟩
  | .hbm, ⟨30, _⟩ => ⟨S46, .f32⟩
  | .hbm, ⟨31, _⟩ => ⟨S46, .f32⟩
  | .hbm, ⟨32, _⟩ => ⟨S46, .f32⟩
  | .hbm, ⟨33, _⟩ => ⟨S_, .f32⟩
  | .hbm, ⟨34, _⟩ => ⟨S46, .f32⟩
  | .hbm, ⟨35, _⟩ => ⟨S46, .f32⟩
  | .hbm, ⟨36, _⟩ => ⟨S46, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S46, .f32⟩
  | .hbm, ⟨41, _⟩ => ⟨S46, .f32⟩
  | .hbm, ⟨42, _⟩ => ⟨S_, .f32⟩
  | .hbm, ⟨43, _⟩ => ⟨S46, .f32⟩
  | .hbm, ⟨44, _⟩ => ⟨S46, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S2000000x46, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_cst_7 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_cst_9 : Ref sig .tc := ⟨.hbm, 47, rfl⟩
abbrev main_v30 : Ref sig .tc := ⟨.hbm, 48, rfl⟩
abbrev main_cst_10 : Ref sig .tc := ⟨.hbm, 49, rfl⟩
abbrev main_v31 : Ref sig .tc := ⟨.hbm, 50, rfl⟩

abbrev nD : Nat := 1
abbrev τ : Topo := Topo.v7x

variable {F : FTy → Type} [FloatOps F]

class Facts₀ : Prop where
  bcast_S2000000_S2000000x1_0 : S2000000.BroadcastsInDim S2000000x1 (![0] : Fin 1 → Fin S2000000x1.rank)
  bcast_S46_S1x46_1 : S46.BroadcastsInDim S1x46 (![1] : Fin 1 → Fin S1x46.rank)
  bcast_S2000000x1_S2000000x46_0_1 : S2000000x1.BroadcastsInDim S2000000x46 (![0, 1] : Fin 2 → Fin S2000000x46.rank)
  bcast_S1x46_S2000000x46_0_1 : S1x46.BroadcastsInDim S2000000x46 (![0, 1] : Fin 2 → Fin S2000000x46.rank)
  reducesTo_S2000000x46_S46_d0 : S2000000x46.ReducesTo [0] S46
  h_S_ : 0 < S_.numel
  bcast_S_S46 : S_.BroadcastsInDim S46 (![] : Fin 0 → Fin S46.rank)
  reducesTo_S46_S_d0 : S46.ReducesTo [0] S_

variable [Facts₀]

class Facts : Prop extends Facts₀ where

variable [Facts]
-- ==== Proof.BlockSums.lean ====
/-
  What one grid point adds to each of the three running column sums, for any float values.

  The body keeps three vectors of 46 entries resident across the grid: the column sums of the predictions, of the
  one-hot rows, and of their product. At a point it adds to each the column sum of its own block of 20000 rows; at the
  first point it first stores zeros and reads them back. So after the first point each vector holds
  zero + (the block's sum), and after a later point (what the point before left) + (the block's sum).
-/
import proofs.«159554_j83081847374037_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.BlockSums

open Cert.KernelIdeal Cert.KernelIdeal.Gen

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl

/-- The zero vector the first point stores. -/
abbrev zero46 : FVec F S46 .f32 := broadcast S46 (Scalar.ofBits .f32 0x00000000#32)

/-- The one-hot rows of a block of labels: entry (r, c) is 1 when row r's label is c, else 0. -/
abbrev hotBlock (y : Vec F S20000x1 .i32) : FVec F S20000x46 .f32 := k0_pay4 y

/-- The column sums of a block of predictions. -/
abbrev colBlock (x : Vec F S20000x46 .f32) : FVec F S46 .f32 :=
  multiReduction .add [0] S46 x 0x00000000#32 reduces_S20000x46_S46 (.inl rfl) rfl
/-- The column sums of a block's one-hot rows: how many rows carry each label. -/
abbrev cntBlock (y : Vec F S20000x1 .i32) : FVec F S46 .f32 :=
  multiReduction .add [0] S46 (hotBlock y) 0x00000000#32 reduces_S20000x46_S46 (.inl rfl) rfl
/-- The column sums of the one-hot rows times the predictions: per label, the predictions of its own rows. -/
abbrev hitBlock (x : Vec F S20000x46 .f32) (y : Vec F S20000x1 .i32) : FVec F S46 .f32 :=
  multiReduction .add [0] S46 (mulf (hotBlock y) x) 0x00000000#32 reduces_S20000x46_S46 (.inl rfl) rfl

/-- A later point leaves, in the first vector, what it found plus the block's column sums. -/
theorem later_col (c : Dev nD) (i : grid0.Coords) (a1 : Memref sig .tc .vmem S20000x46 .f32) (h1 : a1.IsWhole)
    (a2 : Memref sig .tc .vmem S20000x1 .i32) (h2 : a2.IsWhole) (a3 : Memref sig .tc .vmem S46 .f32) (h3 : a3.IsWhole)
    (a4 : Memref sig .tc .vmem S46 .f32) (h4 : a4.IsWhole) (a5 : Memref sig .tc .vmem S46 .f32) (h5 : a5.IsWhole)
    (hc : ¬cond0_0 i) (x : Vec F S20000x46 .f32) (y : Vec F S20000x1 .i32) (o2 o3 o4 : Vec F S46 .f32) :
    out0_B_2 c i a1 h1 a2 h2 a3 h3 a4 h4 a5 h5 hc x y o2 o3 o4 = addf o2 (colBlock x) := by
  unfold out0_B_2
  rw [View.read_writes_eq_canon _ _ _ (cover0_B_2 c i a1 h1 a2 h2 a3 h3 a4 h4 a5 h5 hc x y o2 o3 o4)]
  unfold kernelRun0_B
  dsimp only
  sl_unfold_words
  rw [View.canon_unit_zero hz1]
  unfold k0_pay5
  simp only [View.readAt_eq_ld, h1.read_unread, h2.read_unread, h3.read_unread, h4.read_unread, h5.read_unread,
    View.ld_unit_zero (S := S20000x46) hz2, View.ld_unit_zero (S := S20000x1) hz2, View.ld_unit_zero (S := S46) hz1, shapeCast_self]

/-- A later point leaves, in the second vector, what it found plus the block's label-matched sums. -/
theorem later_hit (c : Dev nD) (i : grid0.Coords) (a1 : Memref sig .tc .vmem S20000x46 .f32) (h1 : a1.IsWhole)
    (a2 : Memref sig .tc .vmem S20000x1 .i32) (h2 : a2.IsWhole) (a3 : Memref sig .tc .vmem S46 .f32) (h3 : a3.IsWhole)
    (a4 : Memref sig .tc .vmem S46 .f32) (h4 : a4.IsWhole) (a5 : Memref sig .tc .vmem S46 .f32) (h5 : a5.IsWhole)
    (hc : ¬cond0_0 i) (x : Vec F S20000x46 .f32) (y : Vec F S20000x1 .i32) (o2 o3 o4 : Vec F S46 .f32) :
    out0_B_3 c i a1 h1 a2 h2 a3 h3 a4 h4 a5 h5 hc x y o2 o3 o4 = addf o3 (hitBlock x y) := by
  unfold out0_B_3
  rw [View.read_writes_eq_canon _ _ _ (cover0_B_3 c i a1 h1 a2 h2 a3 h3 a4 h4 a5 h5 hc x y o2 o3 o4)]
  unfold kernelRun0_B
  dsimp only
  sl_unfold_words
  rw [View.canon_unit_zero hz1]
  unfold k0_pay7
  simp only [View.readAt_eq_ld, h1.read_unread, h2.read_unread, h3.read_unread, h4.read_unread, h5.read_unread,
    View.ld_unit_zero (S := S20000x46) hz2, View.ld_unit_zero (S := S20000x1) hz2, View.ld_unit_zero (S := S46) hz1, shapeCast_self]

/-- A later point leaves, in the third vector, what it found plus the block's label counts. -/
theorem later_cnt (c : Dev nD) (i : grid0.Coords) (a1 : Memref sig .tc .vmem S20000x46 .f32) (h1 : a1.IsWhole)
    (a2 : Memref sig .tc .vmem S20000x1 .i32) (h2 : a2.IsWhole) (a3 : Memref sig .tc .vmem S46 .f32) (h3 : a3.IsWhole)
    (a4 : Memref sig .tc .vmem S46 .f32) (h4 : a4.IsWhole) (a5 : Memref sig .tc .vmem S46 .f32) (h5 : a5.IsWhole)
    (hc : ¬cond0_0 i) (x : Vec F S20000x46 .f32) (y : Vec F S20000x1 .i32) (o2 o3 o4 : Vec F S46 .f32) :
    out0_B_4 c i a1 h1 a2 h2 a3 h3 a4 h4 a5 h5 hc x y o2 o3 o4 = addf o4 (cntBlock y) := by
  unfold out0_B_4
  rw [View.read_writes_eq_canon _ _ _ (cover0_B_4 c i a1 h1 a2 h2 a3 h3 a4 h4 a5 h5 hc x y o2 o3 o4)]
  unfold kernelRun0_B
  dsimp only
  sl_unfold_words
  rw [View.canon_unit_zero hz1]
  unfold k0_pay6
  simp only [View.readAt_eq_ld, h1.read_unread, h2.read_unread, h3.read_unread, h4.read_unread, h5.read_unread,
    View.ld_unit_zero (S := S20000x46) hz2, View.ld_unit_zero (S := S20000x1) hz2, View.ld_unit_zero (S := S46) hz1, shapeCast_self]

/-- The first point leaves, in the first vector, zero plus the block's column sums: it stores the zeros and reads them back. -/
theorem first_col (c : Dev nD) (i : grid0.Coords) (a1 : Memref sig .tc .vmem S20000x46 .f32) (h1 : a1.IsWhole)
    (a2 : Memref sig .tc .vmem S20000x1 .i32) (h2 : a2.IsWhole) (a3 : Memref sig .tc .vmem S46 .f32) (h3 : a3.IsWhole)
    (a4 : Memref sig .tc .vmem S46 .f32) (h4 : a4.IsWhole) (a5 : Memref sig .tc .vmem S46 .f32) (h5 : a5.IsWhole)
    (hc : cond0_0 i) (x : Vec F S20000x46 .f32) (y : Vec F S20000x1 .i32) :
    out0_A_2 c i a1 h1 a2 h2 a3 h3 a4 h4 a5 h5 hc x y = addf zero46 (colBlock x) := by
  unfold out0_A_2
  rw [View.read_writes_eq_canon _ _ _ (cover0_A_2 c i a1 h1 a2 h2 a3 h3 a4 h4 a5 h5 hc x y)]
  unfold kernelRun0_A
  dsimp only
  sl_unfold_words
  rw [View.canon_cons_unit_zero (S := S46) hz1, View.readCov_unit_zero (S := S46) _ hz1]
  unfold k0_pay5 k0_pay1
  simp only [View.readAt_eq_ld, h1.read_unread, h2.read_unread, h3.read_unread, h4.read_unread, h5.read_unread,
    View.ld_unit_zero (S := S20000x46) hz2, View.ld_unit_zero (S := S20000x1) hz2, View.ld_unit_zero (S := S46) hz1, shapeCast_self]

/-- The first point leaves, in the second vector, zero plus the block's label-matched sums. -/
theorem first_hit (c : Dev nD) (i : grid0.Coords) (a1 : Memref sig .tc .vmem S20000x46 .f32) (h1 : a1.IsWhole)
    (a2 : Memref sig .tc .vmem S20000x1 .i32) (h2 : a2.IsWhole) (a3 : Memref sig .tc .vmem S46 .f32) (h3 : a3.IsWhole)
    (a4 : Memref sig .tc .vmem S46 .f32) (h4 : a4.IsWhole) (a5 : Memref sig .tc .vmem S46 .f32) (h5 : a5.IsWhole)
    (hc : cond0_0 i) (x : Vec F S20000x46 .f32) (y : Vec F S20000x1 .i32) :
    out0_A_3 c i a1 h1 a2 h2 a3 h3 a4 h4 a5 h5 hc x y = addf zero46 (hitBlock x y) := by
  unfold out0_A_3
  rw [View.read_writes_eq_canon _ _ _ (cover0_A_3 c i a1 h1 a2 h2 a3 h3 a4 h4 a5 h5 hc x y)]
  unfold kernelRun0_A
  dsimp only
  sl_unfold_words
  rw [View.canon_cons_unit_zero (S := S46) hz1, View.readCov_unit_zero (S := S46) _ hz1]
  unfold k0_pay7 k0_pay2
  simp only [View.readAt_eq_ld, h1.read_unread, h2.read_unread, h3.read_unread, h4.read_unread, h5.read_unread,
    View.ld_unit_zero (S := S20000x46) hz2, View.ld_unit_zero (S := S20000x1) hz2, View.ld_unit_zero (S := S46) hz1, shapeCast_self]

/-- The first point leaves, in the third vector, zero plus the block's label counts. -/
theorem first_cnt (c : Dev nD) (i : grid0.Coords) (a1 : Memref sig .tc .vmem S20000x46 .f32) (h1 : a1.IsWhole)
    (a2 : Memref sig .tc .vmem S20000x1 .i32) (h2 : a2.IsWhole) (a3 : Memref sig .tc .vmem S46 .f32) (h3 : a3.IsWhole)
    (a4 : Memref sig .tc .vmem S46 .f32) (h4 : a4.IsWhole) (a5 : Memref sig .tc .vmem S46 .f32) (h5 : a5.IsWhole)
    (hc : cond0_0 i) (x : Vec F S20000x46 .f32) (y : Vec F S20000x1 .i32) :
    out0_A_4 c i a1 h1 a2 h2 a3 h3 a4 h4 a5 h5 hc x y = addf zero46 (cntBlock y) := by
  unfold out0_A_4
  rw [View.read_writes_eq_canon _ _ _ (cover0_A_4 c i a1 h1 a2 h2 a3 h3 a4 h4 a5 h5 hc x y)]
  unfold kernelRun0_A
  dsimp only
  sl_unfold_words
  rw [View.canon_cons_unit_zero (S := S46) hz1, View.readCov_unit_zero (S := S46) _ hz1]
  unfold k0_pay6 k0_pay3
  simp only [View.readAt_eq_ld, h1.read_unread, h2.read_unread, h3.read_unread, h4.read_unread, h5.read_unread,
    View.ld_unit_zero (S := S20000x46) hz2, View.ld_unit_zero (S := S20000x1) hz2, View.ld_unit_zero (S := S46) hz1, shapeCast_self]

end Cert.KernelIdeal.BlockSums

end
-- ==== Proof.SumLaws.lean ====
/-
  Two laws of finite sums in a commutative monoid (here: the extended reals, and vectors of them), with no
  finiteness assumption: addition alone is commutative and associative there.

  * The sum of the first n + 1 of N terms, as a function of n, starts at the first term, grows by one term per
    step, and is the whole sum from n = N - 1 on: the shape of an accumulator carried across a grid.
  * A sum over 2000000 rows is the sum over 100 blocks of the sums over each block's 20000 rows, row
    20000 * t + r being row r of block t.
-/
import Idealize.ShloMosaic.PureOps.Ideal
import Idealize.ShloMosaic.Lib.ValueIdx

open scoped BigOperators

namespace Cert.SumLaws

variable {M : Type*} [AddCommMonoid M]

/-- The sum of the terms of index at most `n`. -/
def upto {N : ℕ} (B : Fin N → M) (n : ℕ) : M := ∑ t ∈ Finset.univ.filter (fun t : Fin N => t.val ≤ n), B t

theorem upto_zero {N : ℕ} (B : Fin N → M) (h : 0 < N) : upto B 0 = B ⟨0, h⟩ := by
  unfold upto
  have e : Finset.univ.filter (fun t : Fin N => t.val ≤ 0) = {⟨0, h⟩} := by
    ext t
    simp only [Finset.mem_filter, Finset.mem_univ, true_and, Finset.mem_singleton, Fin.ext_iff]
    omega
  rw [e, Finset.sum_singleton]

theorem upto_succ {N : ℕ} (B : Fin N → M) (n : ℕ) (h : n + 1 < N) : upto B (n + 1) = upto B n + B ⟨n + 1, h⟩ := by
  unfold upto
  have e : Finset.univ.filter (fun t : Fin N => t.val ≤ n + 1)
      = insert (⟨n + 1, h⟩ : Fin N) (Finset.univ.filter (fun t : Fin N => t.val ≤ n)) := by
    ext t
    simp only [Finset.mem_filter, Finset.mem_univ, true_and, Finset.mem_insert, Fin.ext_iff]
    omega
  have hn : (⟨n + 1, h⟩ : Fin N) ∉ Finset.univ.filter (fun t : Fin N => t.val ≤ n) := by
    simp only [Finset.mem_filter, Finset.mem_univ, true_and]
    omega
  rw [e, Finset.sum_insert hn, add_comm]

theorem upto_last {N : ℕ} (B : Fin N → M) (n : ℕ) (h : N ≤ n + 1) : upto B n = ∑ t, B t := by
  unfold upto
  rw [Finset.filter_true_of_mem (fun t _ => by have := t.isLt; omega)]

/-- A sum over `m * n` terms, block by block. -/
theorem sum_mul (m n : ℕ) (f : Fin (m * n) → M) :
    ∑ i, f i = ∑ t : Fin m, ∑ r : Fin n, f (finProdFinEquiv (t, r)) := by
  rw [← Equiv.sum_comp finProdFinEquiv f, Fintype.sum_prod_type]

/-- Row `20000 * t + r` of 2000000 rows. -/
abbrev rowOf (t : Fin 100) (r : Fin 20000) : Fin 2000000 :=
  ⟨20000 * t.val + r.val, by have := t.isLt; have := r.isLt; omega⟩

/-- The sum over all rows is the sum over the blocks of the sums over each block's rows. -/
theorem sum_rows (f : Fin 2000000 → M) : ∑ n, f n = ∑ t : Fin 100, ∑ r : Fin 20000, f (rowOf t r) := by
  have e := sum_mul 100 20000 (fun i : Fin (100 * 20000) => f ⟨i.val, i.isLt⟩)
  refine Eq.trans ?_ (e.trans ?_)
  · rfl
  · refine Finset.sum_congr rfl fun t _ => Finset.sum_congr rfl fun r _ => congrArg f (Fin.ext ?_)
    show r.val + 20000 * t.val = 20000 * t.val + r.val
    omega

end Cert.SumLaws
-- ==== Proof.RunningSums.lean ====
/-
  What the three resident vectors hold after each grid point, over the extended reals: the sum, over the points so
  far, of what each point's block adds. By induction on the point: the first point leaves zero plus its block's sums,
  and zero is neutral; a later point adds its block's sums to what the point before left.
-/
import proofs.«159554_j83081847374037_1_alg».proof.Proof.BlockSums
import proofs.«159554_j83081847374037_1_alg».proof.Proof.SumLaws
import Idealize.ShloMosaic.PureOps.Ideal.Laws

noncomputable section

open Idealize.ShloMosaic Idealize.ShloMosaic.TcCoe Idealize.SL.Sem

namespace Cert.KernelIdeal.RunningSums

open Cert.KernelIdeal Cert.KernelIdeal.Gen Cert.KernelIdeal.BlockSums Cert.SumLaws

variable (m : (ℓ : Loc nD τ sig) → Buf (Elt Ideal) ℓ)

/-- The block of predictions point `t` reads, -/
abbrev xblk (c : Dev nD) (t : Fin cfg0.N) : Vec Ideal S20000x46 .f32 := iblk m c 0 t
/-- and its block of labels. -/
abbrev yblk (c : Dev nD) (t : Fin cfg0.N) : Vec Ideal S20000x1 .i32 := iblk m c 1 t

/-- The column sums of the predictions over the blocks of the points up to `n`, -/
abbrev colUpto (c : Dev nD) (n : ℕ) : FVec Ideal S46 .f32 := upto (fun t : Fin cfg0.N => colBlock (xblk m c t)) n
/-- the label-matched sums, -/
abbrev hitUpto (c : Dev nD) (n : ℕ) : FVec Ideal S46 .f32 := upto (fun t : Fin cfg0.N => hitBlock (xblk m c t) (yblk m c t)) n
/-- and the label counts. -/
abbrev cntUpto (c : Dev nD) (n : ℕ) : FVec Ideal S46 .f32 := upto (fun t : Fin cfg0.N => cntBlock (yblk m c t)) n

/-- The stored zeros are neutral. -/
theorem zero_addf (v : FVec Ideal S46 .f32) : addf (zero46 (F := Ideal)) v = v := by
  funext j
  show Ideal.ofBits .f32 0x00000000#32 + v j = v j
  rw [Ideal.ofBits_zero_f32, zero_add]

/-- One more term, written with the vectors' float addition (at these values the pointwise sum). -/
theorem upto_step (B : Fin cfg0.N → FVec Ideal S46 .f32) (n : ℕ) (h : n + 1 < cfg0.N) :
    upto B (n + 1) = addf (upto B n) (B ⟨n + 1, h⟩) := upto_succ B n h

theorem outs_eq (c : Dev nD) : ∀ (n : ℕ) (h : n < cfg0.N),
    outsAt0 m c n h = (colUpto m c n, hitUpto m c n, cntUpto m c n)
  | 0, h => by
    have h0 : 0 < cfg0.N := h
    refine (outsAt0_A m c ⟨0, h⟩ rfl).trans ?_
    refine Prod.ext ?_ (Prod.ext ?_ ?_)
    · dsimp only
      refine (first_col (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr rfl) (xblk m c ⟨0, h⟩) (yblk m c ⟨0, h⟩)).trans ?_
      rw [zero_addf]
      exact (upto_zero (fun t : Fin cfg0.N => colBlock (xblk m c t)) h0).symm
    · dsimp only
      refine (first_hit (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr rfl) (xblk m c ⟨0, h⟩) (yblk m c ⟨0, h⟩)).trans ?_
      rw [zero_addf]
      exact (upto_zero (fun t : Fin cfg0.N => hitBlock (xblk m c t) (yblk m c t)) h0).symm
    · dsimp only
      refine (first_cnt (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr rfl) (xblk m c ⟨0, h⟩) (yblk m c ⟨0, h⟩)).trans ?_
      rw [zero_addf]
      exact (upto_zero (fun t : Fin cfg0.N => cntBlock (yblk m c t)) h0).symm
  | n + 1, h => by
    have hN : cfg0.N = 100 := N_0
    have hB : ¬(⟨n + 1, h⟩ : Fin cfg0.N).val % 100 = 0 := by dsimp only; omega
    have ih := outs_eq c n (Nat.lt_of_succ_lt h)
    have e1 : (outsAt0 m c n (Nat.lt_of_succ_lt h)).1 = colUpto m c n := by rw [ih]
    have e2 : (outsAt0 m c n (Nat.lt_of_succ_lt h)).2.1 = hitUpto m c n := by rw [ih]
    have e3 : (outsAt0 m c n (Nat.lt_of_succ_lt h)).2.2 = cntUpto m c n := by rw [ih]
    refine (outsAt0_B m c ⟨n + 1, h⟩ hB).trans ?_
    refine Prod.ext ?_ (Prod.ext ?_ ?_)
    · dsimp only
      refine (later_col (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => hB ((hcond0_0 ⟨n + 1, h⟩).mp hh)) (xblk m c ⟨n + 1, h⟩) (yblk m c ⟨n + 1, h⟩) _ _ _).trans ?_
      refine Eq.trans ?_ (upto_step (fun t : Fin cfg0.N => colBlock (xblk m c t)) n h).symm
      exact congrArg (fun v : FVec Ideal S46 .f32 => addf v (colBlock (xblk m c ⟨n + 1, h⟩))) e1
    · dsimp only
      refine (later_hit (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => hB ((hcond0_0 ⟨n + 1, h⟩).mp hh)) (xblk m c ⟨n + 1, h⟩) (yblk m c ⟨n + 1, h⟩) _ _ _).trans ?_
      refine Eq.trans ?_ (upto_step (fun t : Fin cfg0.N => hitBlock (xblk m c t) (yblk m c t)) n h).symm
      exact congrArg (fun v : FVec Ideal S46 .f32 => addf v (hitBlock (xblk m c ⟨n + 1, h⟩) (yblk m c ⟨n + 1, h⟩))) e2
    · dsimp only
      refine (later_cnt (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => hB ((hcond0_0 ⟨n + 1, h⟩).mp hh)) (xblk m c ⟨n + 1, h⟩) (yblk m c ⟨n + 1, h⟩) _ _ _).trans ?_
      refine Eq.trans ?_ (upto_step (fun t : Fin cfg0.N => cntBlock (yblk m c t)) n h).symm
      exact congrArg (fun v : FVec Ideal S46 .f32 => addf v (cntBlock (yblk m c ⟨n + 1, h⟩))) e3

end Cert.KernelIdeal.RunningSums

end
-- ==== Proof.F1Loss.lean ====
/-
  The part both programs share: from the three vectors of 46 per-label sums — the predictions' column sums `cs`, the
  label-matched sums `tp`, the label counts `cn` — the loss 1 - mean(clip(F1)), where per label
  precision = tp / (tp + (cs - tp) + ε), recall = tp / (tp + (cn - tp) + ε) and
  F1 = 2 · precision · recall / (precision + recall + ε), clipped to [ε, 1 - ε]. Both programs apply these same
  operations, in the same order and with the same constants, so it is carried as ONE function of the three vectors and
  never opened.
-/
import Idealize.ShloMosaic.PureOps.Ideal

noncomputable section

open Idealize.ShloMosaic

namespace Cert.F1Loss

abbrev V46 : Shape := ⟨1, ![46]⟩
abbrev V0 : Shape := ⟨0, ![]⟩

theorem hb : V0.BroadcastsInDim V46 (![] : Fin 0 → Fin V46.rank) := by decide
theorem hr : V46.ReducesTo [0] V0 := by decide
theorem h0 : 0 < V0.numel := by decide

/-- ε on every label. -/
def eps46 : FVec Ideal V46 .f32 := broadcastInDim V46 ![] hb (constant (F := Ideal) V0 .f32 0x33D6BF95#32)

/-- tp / (tp + (tot - tp) + ε): the precision when `tot` is the column sums, the recall when it is the label counts. -/
def share (tp tot : FVec Ideal V46 .f32) : FVec Ideal V46 .f32 :=
  Host.divf (F := Ideal) tp (addf (addf tp (subf tot tp)) eps46)

/-- 1 - mean over the labels of the clipped F1. -/
def loss (cs tp cn : FVec Ideal V46 .f32) : FVec Ideal V0 .f32 :=
  subf (constant (F := Ideal) V0 .f32 0x3F800000#32)
    (Host.divf (F := Ideal)
      (Host.reduceAdd (F := Ideal)
        (minimumf (broadcastInDim V46 ![] hb (id (constant (F := Ideal) V0 .f32 0x3F7FFFFE#32)))
          (maximumf (broadcastInDim V46 ![] hb (id (constant (F := Ideal) V0 .f32 0x33D6BF95#32)))
            (Host.divf (F := Ideal)
              (mulf (mulf (broadcastInDim V46 ![] hb (constant (F := Ideal) V0 .f32 0x40000000#32)) (share tp cs)) (share tp cn))
              (addf (addf (share tp cs) (share tp cn)) eps46))))
        (constant (F := Ideal) V0 .f32 0x00000000#32) hr h0)
      (constant (F := Ideal) V0 .f32 0x42380000#32))

end Cert.F1Loss

end
-- ==== Proof.LossValue.lean ====
/-
  The idealized kernel's run, read as a value over the extended reals.

  Each of the three resident vectors is written back once, after the last grid point, and its one block is the whole
  array of 46: so the three result arrays of the call end holding the sums over ALL the grid points of the blocks'
  column sums. The host operations after the call compute the loss from these three arrays.
-/
import proofs.«159554_j83081847374037_1_alg».proof.Proof.RunningSums
import proofs.«159554_j83081847374037_1_alg».proof.Proof.F1Loss
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.LossValue

open Cert.KernelIdeal Cert.KernelIdeal.Gen Cert.KernelIdeal.BlockSums Cert.KernelIdeal.RunningSums Cert.SumLaws

variable (m : (ℓ : Loc nD τ sig) → Buf (Elt Ideal) ℓ) (ρ : Dev nD → PrngReg)

/-- The predictions' column sums over every block, -/
abbrev colTotal (c : Dev nD) : FVec Ideal S46 .f32 := ∑ t : Fin cfg0.N, colBlock (xblk m c t)
/-- the label-matched sums, -/
abbrev hitTotal (c : Dev nD) : FVec Ideal S46 .f32 := ∑ t : Fin cfg0.N, hitBlock (xblk m c t) (yblk m c t)
/-- and the label counts. -/
abbrev cntTotal (c : Dev nD) : FVec Ideal S46 .f32 := ∑ t : Fin cfg0.N, cntBlock (yblk m c t)

/-- The same three as contents of the call's three result arrays. -/
abbrev colArr (c : Dev nD) : Buf (Elt Ideal) ((c : Thread nD τ).loc main_v1_0) := colTotal m c
abbrev hitArr (c : Dev nD) : Buf (Elt Ideal) ((c : Thread nD τ).loc main_v1_1) := hitTotal m c
abbrev cntArr (c : Dev nD) : Buf (Elt Ideal) ((c : Thread nD τ).loc main_v1_2) := cntTotal m c

/-- The three output windows never move: their block index is 0 at every point, -/
theorem index2 : ∀ (t : Fin cfg0.N) a, win0_2.index t a = 0 := (by decide +kernel : ∀ (t : Fin grid0.N) a, win0_2.index t a = 0)
theorem index3 : ∀ (t : Fin cfg0.N) a, win0_3.index t a = 0 := (by decide +kernel : ∀ (t : Fin grid0.N) a, win0_3.index t a = 0)
theorem index4 : ∀ (t : Fin cfg0.N) a, win0_4.index t a = 0 := (by decide +kernel : ∀ (t : Fin grid0.N) a, win0_4.index t a = 0)

/-- The last grid point, the only one after which the three vectors are written back. -/
abbrev lastPoint : Fin cfg0.N := ⟨99, by decide⟩

/-- The one write-back of window 2, after the last point, writes the sum over every block: its block is the whole array. -/
theorem flushed_col (c : Dev nD) (t : Fin cfg0.N) (hf : (cfg0.win 2).flush t = true) :
    (dats m 0 c).flushed 2 t = ((cfg0.win 2).blk t).view.read (Elt Ideal) (colArr m c) := by
  have hN : cfg0.N = 100 := N_0
  have h99 : t.val = 99 := by have := (flush0_2 t).mp hf; have := t.isLt; omega
  show (cfg0.win 2).cut (grid0.coords t) ((dats m 0 c).after 2 t) = _
  rw [after0_2, outs_eq]
  have e : colUpto m c t.val = colTotal m c := upto_last _ _ (by omega)
  show (cfg0.win 2).cut (grid0.coords t) (colUpto m c t.val) = _
  rw [e]
  have hz' : (fun a => win0_2.index t a * main_v1_0.ty.shape.size a) = fun _ => 0 :=
    funext fun a => by rw [index2 t a]; exact Nat.zero_mul _
  exact (Memref.read_access_unit_zero (Elt Ideal) main_v1_0 hz' (fun a => by rw [congrFun hz' a]; simp) (colArr m c)).symm

/-- So that result array ends holding it: the last point's block covers all 46 entries. -/
theorem final_col (c : Dev nD) : (dats m 0 c).arrAt 2 cfg0.N = colArr m c :=
  (dats m 0 c).arrAt_eq_of_cover 2 (colArr m c) (flushed_col m c) fun i =>
    ⟨lastPoint, (flush0_2 lastPoint).mpr rfl, by
      show i ∈ ((View.whole main_v1_0).slice (win0_2.rect lastPoint)).set
      rw [View.set_slice_whole, Rect.mem_set_unit]
      intro a
      have hi : (i 0 : Nat) < 46 := (i 0).isLt
      match a with
      | ⟨0, _⟩ =>
        show win0_2.index lastPoint 0 * win0_2.size 0 ≤ (i 0 : Nat)
          ∧ (i 0 : Nat) < win0_2.index lastPoint 0 * win0_2.size 0 + win0_2.xsize (grid0.coords lastPoint) 0
        rw [index2 lastPoint 0, show win0_2.xsize (grid0.coords lastPoint) 0 = 46 from by decide +kernel]
        omega⟩

/-- The one write-back of window 3, after the last point, writes the sum over every block: its block is the whole array. -/
theorem flushed_hit (c : Dev nD) (t : Fin cfg0.N) (hf : (cfg0.win 3).flush t = true) :
    (dats m 0 c).flushed 3 t = ((cfg0.win 3).blk t).view.read (Elt Ideal) (hitArr m c) := by
  have hN : cfg0.N = 100 := N_0
  have h99 : t.val = 99 := by have := (flush0_3 t).mp hf; have := t.isLt; omega
  show (cfg0.win 3).cut (grid0.coords t) ((dats m 0 c).after 3 t) = _
  rw [after0_3, outs_eq]
  have e : hitUpto m c t.val = hitTotal m c := upto_last _ _ (by omega)
  show (cfg0.win 3).cut (grid0.coords t) (hitUpto m c t.val) = _
  rw [e]
  have hz' : (fun a => win0_3.index t a * main_v1_1.ty.shape.size a) = fun _ => 0 :=
    funext fun a => by rw [index3 t a]; exact Nat.zero_mul _
  exact (Memref.read_access_unit_zero (Elt Ideal) main_v1_1 hz' (fun a => by rw [congrFun hz' a]; simp) (hitArr m c)).symm

/-- So that result array ends holding it: the last point's block covers all 46 entries. -/
theorem final_hit (c : Dev nD) : (dats m 0 c).arrAt 3 cfg0.N = hitArr m c :=
  (dats m 0 c).arrAt_eq_of_cover 3 (hitArr m c) (flushed_hit m c) fun i =>
    ⟨lastPoint, (flush0_3 lastPoint).mpr rfl, by
      show i ∈ ((View.whole main_v1_1).slice (win0_3.rect lastPoint)).set
      rw [View.set_slice_whole, Rect.mem_set_unit]
      intro a
      have hi : (i 0 : Nat) < 46 := (i 0).isLt
      match a with
      | ⟨0, _⟩ =>
        show win0_3.index lastPoint 0 * win0_3.size 0 ≤ (i 0 : Nat)
          ∧ (i 0 : Nat) < win0_3.index lastPoint 0 * win0_3.size 0 + win0_3.xsize (grid0.coords lastPoint) 0
        rw [index3 lastPoint 0, show win0_3.xsize (grid0.coords lastPoint) 0 = 46 from by decide +kernel]
        omega⟩

/-- The one write-back of window 4, after the last point, writes the sum over every block: its block is the whole array. -/
theorem flushed_cnt (c : Dev nD) (t : Fin cfg0.N) (hf : (cfg0.win 4).flush t = true) :
    (dats m 0 c).flushed 4 t = ((cfg0.win 4).blk t).view.read (Elt Ideal) (cntArr m c) := by
  have hN : cfg0.N = 100 := N_0
  have h99 : t.val = 99 := by have := (flush0_4 t).mp hf; have := t.isLt; omega
  show (cfg0.win 4).cut (grid0.coords t) ((dats m 0 c).after 4 t) = _
  rw [after0_4, outs_eq]
  have e : cntUpto m c t.val = cntTotal m c := upto_last _ _ (by omega)
  show (cfg0.win 4).cut (grid0.coords t) (cntUpto m c t.val) = _
  rw [e]
  have hz' : (fun a => win0_4.index t a * main_v1_2.ty.shape.size a) = fun _ => 0 :=
    funext fun a => by rw [index4 t a]; exact Nat.zero_mul _
  exact (Memref.read_access_unit_zero (Elt Ideal) main_v1_2 hz' (fun a => by rw [congrFun hz' a]; simp) (cntArr m c)).symm

/-- So that result array ends holding it: the last point's block covers all 46 entries. -/
theorem final_cnt (c : Dev nD) : (dats m 0 c).arrAt 4 cfg0.N = cntArr m c :=
  (dats m 0 c).arrAt_eq_of_cover 4 (cntArr m c) (flushed_cnt m c) fun i =>
    ⟨lastPoint, (flush0_4 lastPoint).mpr rfl, by
      show i ∈ ((View.whole main_v1_2).slice (win0_4.rect lastPoint)).set
      rw [View.set_slice_whole, Rect.mem_set_unit]
      intro a
      have hi : (i 0 : Nat) < 46 := (i 0).isLt
      match a with
      | ⟨0, _⟩ =>
        show win0_4.index lastPoint 0 * win0_4.size 0 ≤ (i 0 : Nat)
          ∧ (i 0 : Nat) < win0_4.index lastPoint 0 * win0_4.size 0 + win0_4.xsize (grid0.coords lastPoint) 0
        rw [index4 lastPoint 0, show win0_4.xsize (grid0.coords lastPoint) 0 = 46 from by decide +kernel]
        omega⟩

set_option maxHeartbeats 2000000 in
set_option maxRecDepth 8192 in
/-- The host operations after the call compute the shared loss of the three result arrays. -/
theorem tail_eq (c : Dev nD) :
    Pipeline.afterTail₀ cfgs (dats m) 0 (V0 m) [hostOps1, hostOps1_1, hostOps1_2] c main_v22
      = Cert.F1Loss.loss (colTotal m c) (hitTotal m c) (cntTotal m c) := by
  unfold Pipeline.afterTail₀
  simp only [hostOps1, hostOps1_1, hostOps1_2, List.flatten_cons, List.flatten_nil, List.append_nil, List.cons_append,
    List.nil_append]
  after_results_simp
  have e0 : Pipeline.withArrays (cfgs 0).spec c (V0 m c) (fun w => (dats m 0 c).arrAt w (cfgs 0).N)
      (Proc.devRef .tc main_v1_0) = colTotal m c :=
    (Pipeline.withArrays_arr spec0 launch0.win.arr_inj c _ _ 2).trans (final_col m c)
  have e1 : Pipeline.withArrays (cfgs 0).spec c (V0 m c) (fun w => (dats m 0 c).arrAt w (cfgs 0).N)
      (Proc.devRef .tc main_v1_1) = hitTotal m c :=
    (Pipeline.withArrays_arr spec0 launch0.win.arr_inj c _ _ 3).trans (final_hit m c)
  have e2 : Pipeline.withArrays (cfgs 0).spec c (V0 m c) (fun w => (dats m 0 c).arrAt w (cfgs 0).N)
      (Proc.devRef .tc main_v1_2) = cntTotal m c :=
    (Pipeline.withArrays_arr spec0 launch0.win.arr_inj c _ _ 4).trans (final_cnt m c)
  rw [e0, e1, e2]
  simp only [Cert.F1Loss.loss, Cert.F1Loss.share, Cert.F1Loss.eps46]
  rfl

/-- The run, read: every weakly fair execution ends with the result at the shared loss of the three sums over every
    block, and with the two arguments as they were. -/
theorem run : θ_run defs (onTc (τ := τ) (main (F := Ideal))) ⟨m, fun _ => 0, ρ⟩ fun r => ∀ c : Dev nD,
      r.2.mem ((c.tc : Thread nD τ).loc main_v22) = Cert.F1Loss.loss (colTotal m c) (hitTotal m c) (cntTotal m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v22 (Pipeline.mem_restRefs_of main_v22 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.LossValue

end
-- ==== Proof.RefLoss.lean ====
/-
  The reference, read over the extended reals: its result is the shared loss function of its three reductions over
  all 2000000 rows — the predictions' column sums, the label-matched sums and the label counts.
-/
import proofs.«159554_j83081847374037_1_alg».proof.Proof.Gen.ReferenceIdeal.Read
import proofs.«159554_j83081847374037_1_alg».proof.Proof.F1Loss

noncomputable section

open Idealize.ShloMosaic Idealize.ShloMosaic.TcCoe Idealize.SL.Sem

namespace Cert.ReferenceIdeal.RefLoss

open Cert.ReferenceIdeal Cert.ReferenceIdeal.Gen Cert.ReferenceIdeal.Read

/-- From its three reductions on, the reference applies the shared operations. -/
theorem result_eq_loss (x0 : (⟨S2000000x46, .f32⟩ : BufTy).Contents (Elt Ideal)) (x1 : (⟨S2000000, .i32⟩ : BufTy).Contents (Elt Ideal)) :
    val_main_v31 (F := Ideal) x0 x1
      = Cert.F1Loss.loss (val_main_v7 (F := Ideal) x0) (val_main_v9 (F := Ideal) x0 x1) (val_main_v10 (F := Ideal) x1) := by
  simp only [val_main_v31, val_main_cst_10, val_main_v30, val_main_cst_9, val_main_v29, val_main_cst_8, val_main_v28, val_main_call0_v4, val_main_call0_v3, val_main_cst_7, val_main_call0_v2, val_main_call0_v1, val_main_call0_v0, val_main_cst_6, val_main_v27, val_main_v26, val_main_v25, val_main_cst_5, val_main_v24, val_main_v23, val_main_v22, val_main_v21, val_main_cst_4, val_main_v20, val_main_v19, val_main_v18, val_main_cst_3, val_main_v17, val_main_v16, val_main_v15, val_main_v14, val_main_cst_2, val_main_v13, val_main_v12, val_main_v11,
    Cert.F1Loss.loss, Cert.F1Loss.share, Cert.F1Loss.eps46]

end Cert.ReferenceIdeal.RefLoss

end
-- ==== Proof.Rows.lean ====
/-
  The blocks a grid point reads, entry by entry, for any float values: row r of point t's block of predictions is
  row 20000 * t + r of the predictions, its label is that row's label, and the one-hot entry (r, l) of the block
  compares that label with l.
-/
import proofs.«159554_j83081847374037_1_alg».proof.Proof.BlockSums
import Idealize.ShloMosaic.Lib.ValueIdx
import Idealize.ShloMosaic.Lib.StableHlo.Run

noncomputable section

open Idealize.ShloMosaic Idealize.ShloMosaic.TcCoe Idealize.SL.Sem Idealize.ShloMosaic.ValueIdx

namespace Cert.KernelIdeal.Rows

open Cert.KernelIdeal Cert.KernelIdeal.Gen Cert.KernelIdeal.BlockSums

variable {F : FTy → Type} [FloatOps F]
variable (m : (ℓ : Loc nD τ sig) → Buf (Elt F) ℓ)

/-- Both input windows step one block of rows per point and never move sideways. -/
theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)

/-- Row `r` of point `t`'s block, among all the rows. -/
abbrev rowIdx (t : Fin cfg0.N) (r : Fin 20000) : Fin 2000000 :=
  ⟨20000 * t.val + r.val, by have := t.isLt; have hN : cfg0.N = 100 := N_0; have := r.isLt; omega⟩

/-- The block of predictions at point `t` holds rows `20000 t` to `20000 t + 19999`. -/
theorem xblk_apply (c : Dev nD) (t : Fin cfg0.N) (r : Fin 20000) (l : Fin 46) :
    (iblk m c 0 t : Vec F S20000x46 .f32) (ix2 r l) = m ((c : Thread nD τ).loc main_arg0) (ix2 (rowIdx t r) l) := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 20000 + 1 * r.val = 20000 * t.val + r.val; rw [(index0 t).1]; omega
  | ⟨1, _⟩ => show win0_0.index t 1 * 46 + 1 * l.val = l.val; rw [(index0 t).2]; omega

/-- The labels as the call finds them: the label vector viewed as one column. -/
theorem labels_eq (c : Dev nD) :
    (V m c main_v0 : S2000000x1.Idx → Elt F .i32)
      = shapeCast S2000000x1 (m ((c : Thread nD τ).loc main_arg1)) shapeCasts_S2000000_S2000000x1 := by
  dsimp only [Gen.V, Gen.V0]
  simp only [hostOps0, List.flatten_cons, List.flatten_nil, List.append_nil]
  after_results
  rfl

/-- The block of labels at point `t` holds the labels of the same rows. -/
theorem yblk_apply (c : Dev nD) (t : Fin cfg0.N) (r : Fin 20000) :
    (iblk m c 1 t : Vec F S20000x1 .i32) (ix2 r (0 : Fin 1)) = m ((c : Thread nD τ).loc main_arg1) (ix1 (rowIdx t r)) := by
  unfold iblk
  rw [View.read_apply]
  show V m c main_v0 _ = _
  rw [labels_eq]
  refine shapeCast_apply _ _ _ _ ?_
  show (S2000000.rowMajor (ix1 (rowIdx t r))).val
    = (S2000000x1.rowMajor (((cfg0.win 1).blk t).view.emb (ix2 r (0 : Fin 1)))).val
  rw [Shape.rowMajor_val_one, Shape.rowMajor_val_two]
  show 20000 * t.val + r.val = (win0_1.index t 0 * 20000 + 1 * r.val) * 1 + (win0_1.index t 1 * 1 + 1 * 0)
  rw [(index1 t).1, (index1 t).2]
  omega

/-- The one-hot entry (r, l) of a block of labels: 1 when row r's label, as a 32-bit word, is l, else 0 — the
    comparison's bit, widened to a word and converted. -/
theorem hotBlock_apply (y : Vec F S20000x1 .i32) (r : Fin 20000) (l : Fin 46) :
    hotBlock y (ix2 r l)
      = FloatOps.sitofp .f32 ((IntOp.cmpi .eq (y (ix2 r (0 : Fin 1))) (BitVec.ofNat 32 l.val)).setWidth 32) := by
  show FloatOps.sitofp .f32 ((IntOp.cmpi .eq
      (broadcastTo S20000x46 (shapeCast S20000x1 y shapeCasts_S20000x1_S20000x1) broadcasts_S20000x1_S20000x46 (ix2 r l))
      (iota .tc S20000x46 32 [1] iota_S20000x46_d1_w32 (ix2 r l))).setWidth 32) = _
  rw [iota_single_apply, shapeCast_self,
    broadcastTo_apply y broadcasts_S20000x1_S20000x46 (ix2 r l) (ix2 r (0 : Fin 1)) (fun a => match a with
      | ⟨0, _⟩ => by show r.val = if (20000 : Nat) = 1 then 0 else r.val; rw [if_neg (by decide)]
      | ⟨1, _⟩ => by show 0 = if (1 : Nat) = 1 then 0 else l.val; rw [if_pos rfl])]

end Cert.KernelIdeal.Rows

end
-- ==== Proof.Totals.lean ====
/-
  The idealized kernel's three sums over every block, entry by entry, over the extended reals: at label l each is
  a sum over all 2000000 rows n — of the prediction (n, l); of the one-hot entry (n, l); and of their product.

  A block's column sum is a sum over its 20000 rows, row r of point t's block is row 20000 * t + r, and the sum
  over the 100 blocks of the sums over each block's rows is the sum over all rows (addition of extended reals is
  commutative and associative; nothing here needs finiteness). The kernel makes the one-hot entry by widening the
  comparison's bit to a word and converting it as a signed integer; a bit widened to a word is 0 or 1, so that is
  the bit converted as an unsigned integer.
-/
import proofs.«159554_j83081847374037_1_alg».proof.Proof.LossValue
import proofs.«159554_j83081847374037_1_alg».proof.Proof.Rows

noncomputable section

open Idealize.ShloMosaic Idealize.ShloMosaic.TcCoe Idealize.SL.Sem Idealize.ShloMosaic.ValueIdx

namespace Cert.KernelIdeal.Totals

open Cert.KernelIdeal Cert.KernelIdeal.Gen Cert.KernelIdeal.BlockSums Cert.KernelIdeal.RunningSums
open Cert.KernelIdeal.LossValue Cert.KernelIdeal.Rows Cert.SumLaws

variable (m : (ℓ : Loc nD τ sig) → Buf (Elt Ideal) ℓ)

/-- The predictions, as extended reals, -/
abbrev preds (c : Dev nD) : FVec Ideal S2000000x46 .f32 := m ((c : Thread nD τ).loc main_arg0)
/-- and the labels, as 32-bit words. -/
abbrev labels (c : Dev nD) : IVec S2000000 32 := m ((c : Thread nD τ).loc main_arg1)

/-- A bit widened to a 32-bit word and read signed is the bit read unsigned. -/
theorem bit_word : ∀ b : BitVec 1, (b.setWidth 32).toInt = (b.toNat : ℤ) := by decide

/-- So the two conversions of a comparison's bit agree. -/
theorem signed_eq_unsigned (b : BitVec 1) :
    FloatOps.sitofp (F := Ideal) .f32 (b.setWidth 32) = FloatOps.uitofp (F := Ideal) .f32 b := by
  show (((b.setWidth 32).toInt : ℝ) : EReal) = ((b.toNat : ℝ) : EReal)
  rw [bit_word b, Int.cast_natCast]

/-- Sums over the blocks of sums over each block's rows are sums over all rows. -/
theorem blocks_sum (g : Fin cfg0.N → Fin 20000 → EReal) (f : Fin 2000000 → EReal)
    (h : ∀ t r, g t r = f (rowIdx t r)) : ∑ t : Fin cfg0.N, ∑ r : Fin 20000, g t r = ∑ n, f n := by
  rw [sum_rows f, ← Equiv.sum_comp (finCongr (N_0 : cfg0.N = 100)) (fun t' : Fin 100 => ∑ r : Fin 20000, f (rowOf t' r))]
  refine Finset.sum_congr rfl fun t _ => Finset.sum_congr rfl fun r _ => ?_
  rw [h t r]
  exact congrArg f (Fin.ext rfl)

/-- A block's column sums at label l: the sum over the block's rows. -/
theorem colBlock_apply (x : Vec Ideal S20000x46 .f32) (l : Fin 46) :
    colBlock x (ix1 l) = ∑ r : Fin 20000, x (ix2 r l) := by
  refine (Ideal.multiReduction_add_single (s := S20000x46) (t := S46) (a := 0) x _ reduces_S20000x46_S46 _ _ (ix1 l)).trans ?_
  refine Finset.sum_congr rfl fun r _ => congrArg x ?_
  funext a
  match a with
  | ⟨0, _⟩ => rfl
  | ⟨1, _⟩ => rfl

/-- The predictions' column sums over every block, at label l. -/
theorem col_apply (c : Dev nD) (l : Fin 46) :
    colTotal m c (ix1 l) = ∑ n : Fin 2000000, preds m c (ix2 n l) := by
  show (∑ t : Fin cfg0.N, colBlock (xblk m c t)) (ix1 l) = _
  rw [Finset.sum_apply]
  rw [Finset.sum_congr rfl fun t _ => colBlock_apply (xblk m c t) l]
  exact blocks_sum (fun t r => xblk m c t (ix2 r l)) (fun n => preds m c (ix2 n l))
    (fun t r => xblk_apply m c t r l)

/-- The one-hot entry (r, l) of point t's block is the bit of "row 20000 t + r's label is l", as 0 or 1. -/
theorem hot_apply (c : Dev nD) (t : Fin cfg0.N) (r : Fin 20000) (l : Fin 46) :
    hotBlock (yblk m c t) (ix2 r l)
      = FloatOps.uitofp (F := Ideal) .f32
          (IntOp.cmpi .eq (labels m c (ix1 (rowIdx t r))) (BitVec.ofNat 32 l.val)) := by
  rw [hotBlock_apply, signed_eq_unsigned]
  exact congrArg (fun y => FloatOps.uitofp (F := Ideal) .f32 (IntOp.cmpi .eq y (BitVec.ofNat 32 l.val))) (yblk_apply m c t r)

/-- The label counts over every block, at label l. -/
theorem cnt_apply (c : Dev nD) (l : Fin 46) :
    cntTotal m c (ix1 l)
      = ∑ n : Fin 2000000, FloatOps.uitofp (F := Ideal) .f32
          (IntOp.cmpi .eq (labels m c (ix1 n)) (BitVec.ofNat 32 l.val)) := by
  show (∑ t : Fin cfg0.N, cntBlock (yblk m c t)) (ix1 l) = _
  rw [Finset.sum_apply]
  rw [Finset.sum_congr rfl fun t _ => colBlock_apply (hotBlock (yblk m c t)) l]
  exact blocks_sum (fun t r => hotBlock (yblk m c t) (ix2 r l))
    (fun n => FloatOps.uitofp (F := Ideal) .f32
      (IntOp.cmpi .eq (labels m c (ix1 n)) (BitVec.ofNat 32 l.val)))
    (fun t r => hot_apply m c t r l)

/-- The label-matched sums over every block, at label l. -/
theorem hit_apply (c : Dev nD) (l : Fin 46) :
    hitTotal m c (ix1 l)
      = ∑ n : Fin 2000000, FloatOps.uitofp (F := Ideal) .f32
          (IntOp.cmpi .eq (labels m c (ix1 n)) (BitVec.ofNat 32 l.val))
            * preds m c (ix2 n l) := by
  show (∑ t : Fin cfg0.N, hitBlock (xblk m c t) (yblk m c t)) (ix1 l) = _
  rw [Finset.sum_apply]
  rw [Finset.sum_congr rfl fun t _ => colBlock_apply (mulf (hotBlock (yblk m c t)) (xblk m c t)) l]
  exact blocks_sum (fun t r => mulf (hotBlock (yblk m c t)) (xblk m c t) (ix2 r l))
    (fun n => FloatOps.uitofp (F := Ideal) .f32
      (IntOp.cmpi .eq (labels m c (ix1 n)) (BitVec.ofNat 32 l.val))
        * preds m c (ix2 n l))
    (fun t r => by
      show hotBlock (yblk m c t) (ix2 r l) * xblk m c t (ix2 r l) = _
      rw [hot_apply]
      exact congrArg (fun v : EReal => _ * v) (xblk_apply m c t r l))

end Cert.KernelIdeal.Totals

end
-- ==== Proof.RefSums.lean ====
/-
  The reference's three reductions, entry by entry, over the extended reals: at label l each is zero plus a sum over
  all 2000000 rows n — of the prediction (n, l); of the one-hot entry (n, l), which compares row n's label with l;
  and of their product.
-/
import proofs.«159554_j83081847374037_1_alg».proof.Proof.Gen.ReferenceIdeal.Read
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.ReferenceIdeal.RefSums

open Cert.ReferenceIdeal Cert.ReferenceIdeal.Gen Cert.ReferenceIdeal.Read

/-- The one-hot entry: the bit of "the label is l", as 0 or 1. -/
theorem onehot_apply (x1 : (⟨S2000000, .i32⟩ : BufTy).Contents (Elt Ideal)) (n : Fin 2000000) (l : Fin 46) :
    val_main_v6 (F := Ideal) x1 (ix2 n l)
      = FloatOps.uitofp (F := Ideal) .f32 (IntOp.cmpi .eq (x1 (ix1 n)) (BitVec.ofNat 32 l.val)) := by
  rw [val_main_v6_apply, val_main_v5_apply, val_main_v3_apply, val_main_v1_apply, val_main_v4_apply, val_main_v2_apply,
    val_main_v0_apply]
  have e : idx_main_v1 (idx_main_v3 (ix2 n l)) = ix1 n := by
    funext a
    match a with
    | ⟨0, _⟩ => rfl
  rw [e]

/-- The predictions' column sums. -/
theorem col_apply (x0 : (⟨S2000000x46, .f32⟩ : BufTy).Contents (Elt Ideal)) (l : Fin 46) :
    val_main_v7 (F := Ideal) x0 (ix1 l) = ∑ n : Fin 2000000, x0 (ix2 n l) := by
  rw [val_main_v7_apply, val_main_cst_apply]
  show Ideal.ofBits .f32 0x00000000#32 + _ = _
  rw [Ideal.ofBits_zero_f32, zero_add]
  refine Finset.sum_congr rfl fun n _ => congrArg x0 ?_
  funext a
  match a with
  | ⟨0, _⟩ => rfl
  | ⟨1, _⟩ => rfl

/-- The label counts. -/
theorem cnt_apply (x1 : (⟨S2000000, .i32⟩ : BufTy).Contents (Elt Ideal)) (l : Fin 46) :
    val_main_v10 (F := Ideal) x1 (ix1 l)
      = ∑ n : Fin 2000000, FloatOps.uitofp (F := Ideal) .f32 (IntOp.cmpi .eq (x1 (ix1 n)) (BitVec.ofNat 32 l.val)) := by
  rw [val_main_v10_apply, val_main_cst_1_apply]
  show Ideal.ofBits .f32 0x00000000#32 + _ = _
  rw [Ideal.ofBits_zero_f32, zero_add]
  refine Finset.sum_congr rfl fun n _ => ?_
  have e : idx_main_v10 (ix1 l) n = ix2 n l := by
    funext a
    match a with
    | ⟨0, _⟩ => rfl
    | ⟨1, _⟩ => rfl
  rw [e, onehot_apply]

/-- The label-matched sums. -/
theorem hit_apply (x0 : (⟨S2000000x46, .f32⟩ : BufTy).Contents (Elt Ideal)) (x1 : (⟨S2000000, .i32⟩ : BufTy).Contents (Elt Ideal))
    (l : Fin 46) :
    val_main_v9 (F := Ideal) x0 x1 (ix1 l)
      = ∑ n : Fin 2000000,
          FloatOps.uitofp (F := Ideal) .f32 (IntOp.cmpi .eq (x1 (ix1 n)) (BitVec.ofNat 32 l.val)) * x0 (ix2 n l) := by
  rw [val_main_v9_apply, val_main_cst_0_apply]
  show Ideal.ofBits .f32 0x00000000#32 + _ = _
  rw [Ideal.ofBits_zero_f32, zero_add]
  refine Finset.sum_congr rfl fun n _ => ?_
  have e : idx_main_v9 (ix1 l) n = ix2 n l := by
    funext a
    match a with
    | ⟨0, _⟩ => rfl
    | ⟨1, _⟩ => rfl
  rw [e, val_main_v8_apply, onehot_apply]
  rfl

end Cert.ReferenceIdeal.RefSums

end
-- ==== Proof.SameSums.lean ====
/-
  The kernel's three sums over every block ARE the reference's three reductions of the same arguments: at each label
  both are the same sum over all 2000000 rows.
-/
import proofs.«159554_j83081847374037_1_alg».proof.Proof.Totals
import proofs.«159554_j83081847374037_1_alg».proof.Proof.RefSums

noncomputable section

open Idealize.ShloMosaic Idealize.ShloMosaic.TcCoe Idealize.SL.Sem Idealize.ShloMosaic.ValueIdx

namespace Cert.SameSums

open Cert.KernelIdeal Cert.KernelIdeal.LossValue

variable (m : (ℓ : Loc nD τ sig) → Buf (Elt Ideal) ℓ)

theorem col_eq (c : Dev nD) :
    colTotal m c = Cert.ReferenceIdeal.Read.val_main_v7 (F := Ideal) (m ((c : Thread nD τ).loc main_arg0)) := by
  funext j
  obtain ⟨l, rfl⟩ : ∃ l : Fin 46, j = ix1 l := ⟨j 0, eq_ix1 j⟩
  rw [Cert.KernelIdeal.Totals.col_apply, Cert.ReferenceIdeal.RefSums.col_apply]

theorem hit_eq (c : Dev nD) :
    hitTotal m c = Cert.ReferenceIdeal.Read.val_main_v9 (F := Ideal) (m ((c : Thread nD τ).loc main_arg0))
      (m ((c : Thread nD τ).loc main_arg1)) := by
  funext j
  obtain ⟨l, rfl⟩ : ∃ l : Fin 46, j = ix1 l := ⟨j 0, eq_ix1 j⟩
  rw [Cert.KernelIdeal.Totals.hit_apply, Cert.ReferenceIdeal.RefSums.hit_apply]

theorem cnt_eq (c : Dev nD) :
    cntTotal m c = Cert.ReferenceIdeal.Read.val_main_v10 (F := Ideal) (m ((c : Thread nD τ).loc main_arg1)) := by
  funext j
  obtain ⟨l, rfl⟩ : ∃ l : Fin 46, j = ix1 l := ⟨j 0, eq_ix1 j⟩
  rw [Cert.KernelIdeal.Totals.cnt_apply, Cert.ReferenceIdeal.RefSums.cnt_apply]

end Cert.SameSums

end
-- ==== Proof.lean ====
/-
  F1 loss over per-label sums: a Pallas kernel that streams the 2000000 rows of predictions and labels in 100 blocks
  of 20000 rows, accumulating three vectors of 46 sums across the grid, against jnp's three whole-array reductions.

  Over the extended reals both programs compute, per label l, the predictions' column sum, the sum of the predictions
  of the rows labelled l, and the number of rows labelled l, and then apply the same operations to the three vectors
  (precision, recall, F1, the clip, the mean). The kernel's three vectors are sums over the blocks of sums over each
  block's rows; the reference's are sums over all rows: equal, because addition of extended reals is commutative and
  associative (no finiteness is needed, and the precondition is not used). The ideal pass rewrote nothing, so
  `preserves` is trivial. The frames of the two kernel programs are the generated ones; the reference's frame is its
  generated run with the result dropped.
-/
import proofs.«159554_j83081847374037_1_alg».proof.Defs
import proofs.«159554_j83081847374037_1_alg».proof.Proof.Gen.Kernel
import proofs.«159554_j83081847374037_1_alg».proof.Proof.Gen.Kernel.Skeleton
import proofs.«159554_j83081847374037_1_alg».proof.Proof.Gen.Kernel.Launch
import proofs.«159554_j83081847374037_1_alg».proof.Proof.Gen.Kernel.Points
import proofs.«159554_j83081847374037_1_alg».proof.Proof.Gen.Kernel.Frame
import proofs.«159554_j83081847374037_1_alg».proof.Proof.Gen.KernelIdeal
import proofs.«159554_j83081847374037_1_alg».proof.Proof.Gen.KernelIdeal.Skeleton
import proofs.«159554_j83081847374037_1_alg».proof.Proof.Gen.KernelIdeal.Launch
import proofs.«159554_j83081847374037_1_alg».proof.Proof.Gen.KernelIdeal.Points
import proofs.«159554_j83081847374037_1_alg».proof.Proof.Gen.KernelIdeal.Frame
import proofs.«159554_j83081847374037_1_alg».proof.Proof.Gen.ReferenceIdeal
import proofs.«159554_j83081847374037_1_alg».proof.Proof.Gen.Pre_finite_inputs
import proofs.«159554_j83081847374037_1_alg».proof.Proof.Gen.ReferenceIdeal.Run
import proofs.«159554_j83081847374037_1_alg».proof.Proof.Gen.ReferenceIdeal.Read
import proofs.«159554_j83081847374037_1_alg».proof.Proof.LossValue
import proofs.«159554_j83081847374037_1_alg».proof.Proof.RefLoss
import proofs.«159554_j83081847374037_1_alg».proof.Proof.SameSums
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run leaves its arguments as they were. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at the shared loss of the same three vectors of sums. -/
theorem algebraic : Cert.algebraic_KernelIdeal_ReferenceIdeal := by
  intro m ρ m' ρ' _ hagree
  refine ⟨fun c => Cert.F1Loss.loss (Cert.KernelIdeal.LossValue.colTotal m c) (Cert.KernelIdeal.LossValue.hitTotal m c)
    (Cert.KernelIdeal.LossValue.cntTotal m c), Cert.KernelIdeal.LossValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.RefLoss.result_eq_loss, (hagree c).1, (hagree c).2,
    ← Cert.SameSums.col_eq m c, ← Cert.SameSums.hit_eq m c, ← Cert.SameSums.cnt_eq m c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
